-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_0)) (v2 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_v3_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x4096 : Shape := ⟨2, ![4096, 4096]⟩
abbrev S4096x1 : Shape := ⟨2, ![4096, 1]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1 : S_.BroadcastsInDim S4096x1 (![] : Fin 0 → Fin S4096x1.rank)
  reducesTo_S4096x1_S_d0_1 : S4096x1.ReducesTo [0, 1] S_

variable [Facts]

def fn_part4 {F : FTy → Type} [FloatOps F] (main_arg14 : FVec F S4096x1 .f32) (main_v63 : IVec S_ 1) (main_v67 : IVec S_ 1) : IVec S_ 1 :=
  let main_v68 : IVec S_ 1 := andi main_v63 main_v67
  let main_v69 : FVec F S4096x1 .f32 := Host.absf main_arg14
  let main_cst_26 : FVec F S_ .f32 := constant S_ .f32 0x7F800000#32
  let main_v70 : FVec F S4096x1 .f32 := broadcastInDim S4096x1 ![] bcast_S_S4096x1 main_cst_26
  let main_v71 : IVec S4096x1 1 := cmpf .olt main_v69 main_v70
  let main_c_27 : IVec S_ 1 := constantI S_ 1 1#1
  let main_v72 : IVec S_ 1 := (fun x v => Host.reduce IntOp.andi x v reducesTo_S4096x1_S_d0_1 h_S_) main_v71 main_c_27
  let main_v73 : IVec S_ 1 := andi main_v68 main_v72
  main_v73

def fn_part3 {F : FTy → Type} [FloatOps F] (main_arg11 : FVec F S4096x1 .f32) (main_arg12 : FVec F S4096x1 .f32) (main_arg13 : FVec F S4096x1 .f32) (main_arg14 : FVec F S4096x1 .f32) (main_v48 : IVec S_ 1) (main_v49 : FVec F S4096x4096 .f32) (main_v50 : FVec F S4096x4096 .f32) : IVec S_ 1 :=
  let main_v51 : IVec S4096x4096 1 := cmpf .olt main_v49 main_v50
  let main_c_19 : IVec S_ 1 := constantI S_ 1 1#1
  let main_v52 : IVec S_ 1 := (fun x v => Host.reduce IntOp.andi x v reducesTo_S4096x4096_S_d0_1 h_S_) main_v51 main_c_19
  let main_v53 : IVec S_ 1 := andi main_v48 main_v52
  let main_v54 : FVec F S4096x1 .f32 := Host.absf main_arg11
  let main_cst_20 : FVec F S_ .f32 := constant S_ .f32 0x7F800000#32
  let main_v55 : FVec F S4096x1 .f32 := broadcastInDim S4096x1 ![] bcast_S_S4096x1 main_cst_20
  let main_v56 : IVec S4096x1 1 := cmpf .olt main_v54 main_v55
  let main_c_21 : IVec S_ 1 := constantI S_ 1 1#1
  let main_v57 : IVec S_ 1 := (fun x v => Host.reduce IntOp.andi x v reducesTo_S4096x1_S_d0_1 h_S_) main_v56 main_c_21
  let main_v58 : IVec S_ 1 := andi main_v53 main_v57
  let main_v59 : FVec F S4096x1 .f32 := Host.absf main_arg12
  let main_cst_22 : FVec F S_ .f32 := constant S_ .f32 0x7F800000#32
  let main_v60 : FVec F S4096x1 .f32 := broadcastInDim S4096x1 ![] bcast_S_S4096x1 main_cst_22
  let main_v61 : IVec S4096x1 1 := cmpf .olt main_v59 main_v60
  let main_c_23 : IVec S_ 1 := constantI S_ 1 1#1
  let main_v62 : IVec S_ 1 := (fun x v => Host.reduce IntOp.andi x v reducesTo_S4096x1_S_d0_1 h_S_) main_v61 main_c_23
  let main_v63 : IVec S_ 1 := andi main_v58 main_v62
  let main_v64 : FVec F S4096x1 .f32 := Host.absf main_arg13
  let main_cst_24 : FVec F S_ .f32 := constant S_ .f32 0x7F800000#32
  let main_v65 : FVec F S4096x1 .f32 := broadcastInDim S4096x1 ![] bcast_S_S4096x1 main_cst_24
  let main_v66 : IVec S4096x1 1 := cmpf .olt main_v64 main_v65
  let main_c_25 : IVec S_ 1 := constantI S_ 1 1#1
  let main_v67 : IVec S_ 1 := (fun x v => Host.reduce IntOp.andi x v reducesTo_S4096x1_S_d0_1 h_S_) main_v66 main_c_25
  fn_part4 (F := F) main_arg14 main_v63 main_v67

def fn_part2 {F : FTy → Type} [FloatOps F] (main_arg7 : FVec F S4096x4096 .f32) (main_arg8 : FVec F S4096x4096 .f32) (main_arg9 : FVec F S4096x4096 .f32) (main_arg10 : FVec F S4096x4096 .f32) (main_arg11 : FVec F S4096x1 .f32) (main_arg12 : FVec F S4096x1 .f32) (main_arg13 : FVec F S4096x1 .f32) (main_arg14 : FVec F S4096x1 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096x4096 .f32 := Host.absf main_arg8
  let main_cst_14 : FVec F S_ .f32 := constant S_ .f32 0x7F800000#32
  let main_v40 : FVec F S4096x4096 .f32 := broadcastInDim S4096x4096 ![] bcast_S_S4096x4096 main_cst_14
  let main_v41 : IVec S4096x4096 1 := cmpf .olt main_v39 main_v40
  let main_c_15 : IVec S_ 1 := constantI S_ 1 1#1
  let main_v42 : IVec S_ 1 := (fun x v => Host.reduce IntOp.andi x v reducesTo_S4096x4096_S_d0_1 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096x4096 .f32 := Host.absf main_arg10
  let main_cst_18 : FVec F S_ .f32 := constant S_ .f32 0x7F800000#32
  let main_v50 : FVec F S4096x4096 .f32 := broadcastInDim S4096x4096 ![] bcast_S_S4096x4096 main_cst_18
  fn_part3 (F := F) main_arg11 main_arg12 main_arg13 main_arg14 main_v48 main_v49 main_v50

def fn_part1 {F : FTy → Type} [FloatOps F] (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) (main_arg10 : FVec F S4096x4096 .f32) (main_arg11 : FVec F S4096x1 .f32) (main_arg12 : FVec F S4096x1 .f32) (main_arg13 : FVec F S4096x1 .f32) (main_arg14 : FVec F S4096x1 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  let main_v29 : FVec F S4096x4096 .f32 := Host.absf main_arg6
  let main_cst_10 : FVec F S_ .f32 := constant S_ .f32 0x7F800000#32
  let main_v30 : FVec F S4096x4096 .f32 := broadcastInDim S4096x4096 ![] bcast_S_S4096x4096 main_cst_10
  let main_v31 : IVec S4096x4096 1 := cmpf .olt main_v29 main_v30
  let main_c_11 : IVec S_ 1 := constantI S_ 1 1#1
  let main_v32 : IVec S_ 1 := (fun x v => Host.reduce IntOp.andi x v reducesTo_S4096x4096_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096 .f32) (main_arg1 : FVec F S4096 .f32) (main_arg2 : FVec F S4096 .f32) (main_arg3 : FVec F S4096x4096 .f32) (main_arg4 : FVec F S4096x4096 .f32) (main_arg5 : FVec F S4096x4096 .f32) (main_arg6 : FVec F S4096x4096 .f32) (main_arg7 : FVec F S4096x4096 .f32) (main_arg8 : FVec F S4096x4096 .f32) (main_arg9 : FVec F S4096x4096 .f32) (main_arg10 : FVec F S4096x4096 .f32) (main_arg11 : FVec F S4096x1 .f32) (main_arg12 : FVec F S4096x1 .f32) (main_arg13 : FVec F S4096x1 .f32) (main_arg14 : FVec F S4096x1 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096 : Shape := ⟨1, ![4096]⟩
abbrev S4096x4096 : Shape := ⟨2, ![4096, 4096]⟩
abbrev S4096x1 : Shape := ⟨2, ![4096, 1]⟩
abbrev S1x1x4096 : Shape := ⟨3, ![1, 1, 4096]⟩
abbrev S128x1 : Shape := ⟨2, ![128, 1]⟩
abbrev S128x4096 : Shape := ⟨2, ![128, 4096]⟩
abbrev S1x1x128 : Shape := ⟨3, ![1, 1, 128]⟩
abbrev S1x128 : Shape := ⟨2, ![1, 128]⟩

abbrev nBuf : Space → Nat
  | .hbm => 20
  | .vmem => 32
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S1x1x4096, .f32⟩
  | .hbm, ⟨19, _⟩ => ⟨S4096x1, .f32⟩
  | .local _ .vmem, ⟨0, _⟩ => ⟨S4096x1, .f32⟩
  | .local _ .vmem, ⟨1, _⟩ => ⟨S4096x1, .f32⟩
  | .local _ .vmem, ⟨2, _⟩ => ⟨S128x1, .f32⟩
  | .local _ .vmem, ⟨3, _⟩ => ⟨S128x1, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | .local _ .vmem, ⟨19, _⟩ => ⟨S128x4096, .f32⟩
  | .local _ .vmem, ⟨20, _⟩ => ⟨S128x1, .f32⟩
  | .local _ .vmem, ⟨21, _⟩ => ⟨S128x1, .f32⟩
  | .local _ .vmem, ⟨22, _⟩ => ⟨S128x1, .f32⟩
  | .local _ .vmem, ⟨23, _⟩ => ⟨S128x1, .f32⟩
  | .local _ .vmem, ⟨24, _⟩ => ⟨S128x1, .f32⟩
  | .local _ .vmem, ⟨25, _⟩ => ⟨S128x1, .f32⟩
  | .local _ .vmem, ⟨26, _⟩ => ⟨S128x1, .f32⟩
  | .local _ .vmem, ⟨27, _⟩ => ⟨S128x1, .f32⟩
  | .local _ .vmem, ⟨28, _⟩ => ⟨S1x1x128, .f32⟩
  | .local _ .vmem, ⟨29, _⟩ => ⟨S1x1x128, .f32⟩
  | .local _ .vmem, ⟨30, _⟩ => ⟨S128x1, .f32⟩
  | .local _ .vmem, ⟨31, _⟩ => ⟨S128x1, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3_0 : Ref sig .tc := ⟨.hbm, 18, rfl⟩
abbrev main_v3_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4096x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x4096_S128x4096_0_0 : ∀ a, (![0, 0] : Fin 2 → Nat) a + S128x4096.size a ≤ S128x4096.size a
  h_S128x4096 : 0 < S128x4096.numel
  transposes_S128x1_p1_0_S1x128 : S128x1.Transposes [1, 0] S1x128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  dot_S128x4096_S4096x1_S128x1_1_0_0_1_n_n_wf : DotDims.WF S128x4096 S4096x1 S128x1 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x1.size a ≤ S4096x1.size a
  hwx0_0 : ∀ i : grid0.Coords, EltTy.bits .f32 = 32 ∨ (Rect.block (s := S4096x1) S4096x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4096x1.size a
  hwx0_1 : ∀ i : grid0.Coords, EltTy.bits .f32 = 32 ∨ (Rect.block (s := S4096x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x4096.size a ≤ S4096x4096.size a
  hwx0_3 : ∀ i : grid0.Coords, EltTy.bits .f32 = 32 ∨ (Rect.block (s := S4096x4096) S128x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S4096x4096.size a
  hwx0_5 : ∀ i : grid0.Coords, EltTy.bits .f32 = 32 ∨ (Rect.block (s := S4096x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S4096x4096.size a
  hwx0_6 : ∀ i : grid0.Coords, EltTy.bits .f32 = 32 ∨ (Rect.block (s := S4096x4096) S128x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S4096x4096.size a
  hwx0_7 : ∀ i : grid0.Coords, EltTy.bits .f32 = 32 ∨ (Rect.block (s := S4096x4096) S128x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x4096.size a ≤ S4096x4096.size a
  hwx0_8 : ∀ i : grid0.Coords, EltTy.bits .f32 = 32 ∨ (Rect.block (s := S4096x4096) S128x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S128x4096.size a ≤ S4096x4096.size a
  hwx0_9 : ∀ i : grid0.Coords, EltTy.bits .f32 = 32 ∨ (Rect.block (s := S4096x4096) S128x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x4096.size a ≤ S4096x4096.size a
  hwx0_10 : ∀ i : grid0.Coords, EltTy.bits .f32 = 32 ∨ (Rect.block (s := S4096x4096) S128x4096.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S4096x1.size a
  hwx0_11 : ∀ i : grid0.Coords, EltTy.bits .f32 = 32 ∨ (Rect.block (s := S4096x1) S128x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x1.size a ≤ S4096x1.size a
  hwx0_12 : ∀ i : grid0.Coords, EltTy.bits .f32 = 32 ∨ (Rect.block (s := S4096x1) S128x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S128x1.size a ≤ S4096x1.size a
  hwx0_13 : ∀ i : grid0.Coords, EltTy.bits .f32 = 32 ∨ (Rect.block (s := S4096x1) S128x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S128x1.size a ≤ S4096x1.size a
  hwx0_14 : ∀ i : grid0.Coords, EltTy.bits .f32 = 32 ∨ (Rect.block (s := S4096x1) S128x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1x128.size a ≤ S1x1x4096.size a
  hwx0_15 : ∀ i : grid0.Coords, EltTy.bits .f32 = 32 ∨ (Rect.block (s := S1x1x4096) S1x1x128.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S128x1.size a ≤ S4096x1.size a
  hwx0_16 : ∀ i : grid0.Coords, EltTy.bits .f32 = 32 ∨ (Rect.block (s := S4096x1) S128x1.size (cc0_transform_16 i) (hinb0_16 i)).WholeWords (EltTy.packing .f32)

variable [Facts₀]

def dot_S128x4096_S4096x1_S128x1_1_0_0_1_n_n : DotDims S128x4096 S4096x1 S128x1 where
  lhsContracting := [1]
  rhsContracting := [0]
  lhsNonContracting := [0]
  rhsNonContracting := [1]
  lhsBatch := []
  rhsBatch := []
  wf := dot_S128x4096_S4096x1_S128x1_1_0_0_1_n_n_wf

abbrev win0_0 : Pipeline.Window sig grid0 :=
  Pipeline.Window.ofSpec (Memref.whole main_v0) S4096x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x4096.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x4096.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x4096.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128x1.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S128x1.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S128x1.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S128x1.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v3_0) S1x1x128.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v3_1) S128x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S4096 : Shape := ⟨1, ![4096]⟩
abbrev S4096x4096 : Shape := ⟨2, ![4096, 4096]⟩
abbrev S4096x1 : Shape := ⟨2, ![4096, 1]⟩
abbrev S_ : Shape := ⟨0, ![]⟩
abbrev S1x1x4096 : Shape := ⟨3, ![1, 1, 4096]⟩

abbrev nBuf : Space → Nat
  | .hbm => 72
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4096, .f32⟩
  | .hbm, ⟨2, _⟩ => ⟨S4096, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S1x1x4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_1 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_cst_4 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_5 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩

abbrev nD : Nat := 1
abbrev τ : Topo := Topo.v7x

variable {F : FTy → Type} [FloatOps F]

class Facts₀ : Prop where
  shapeCasts_S4096_S4096x1 : S4096.ShapeCasts S4096x1
  bcast_S_S4096x1 : S_.BroadcastsInDim S4096x1 (![] : Fin 0 → Fin S4096x1.rank)
  shapeCasts_S4096x1_S1x1x4096 : S4096x1.ShapeCasts S1x1x4096
  dot_S4096x4096_S4096x1_S4096x1_1_0_0_1_n_n_wf : DotDims.WF S4096x4096 S4096x1 S4096x1 [1] [0] [0] [1] [] []

variable [Facts₀]

def dot_S4096x4096_S4096x1_S4096x1_1_0_0_1_n_n : DotDims S4096x4096 S4096x1 S4096x1 where
  lhsContracting := [1]
  rhsContracting := [0]
  lhsNonContracting := [0]
  rhsNonContracting := [1]
  lhsBatch := []
  rhsBatch := []
  wf := dot_S4096x4096_S4096x1_S4096x1_1_0_0_1_n_n_wf

class Facts : Prop extends Facts₀ where

variable [Facts]
-- ==== Proof.CellSpec.lean ====
/-
  One step of an LSTM cell on vectors of length 4096, over the extended reals, as functions of the
  argument arrays read index by index.

  With x the input vector, h the previous hidden vector and c the previous cell vector, a GATE at row r is
  the logistic of its pre-activation

      (∑ₖ W[r,k] · x[k]) + (∑ₖ U[r,k] · h[k]) + b[r],

  for a pair of weight matrices W (input side), U (hidden side) and a bias column b. Four gates share that
  form: the input gate i, the forget gate f, the candidate g (here also a logistic, not a tanh) and the
  output gate o. The new cell value at r is  f[r] · c[r] + i[r] · g[r]  and the new hidden value is
  o[r] · tanh(new cell[r]). The cell column has shape [4096, 1], the hidden row shape [1, 1, 4096].

  Nothing here needs the inputs to be finite: both programs compute these very expressions, the sums in the
  same order of their terms' index, so the statements hold for every extended real.
-/
import Idealize.ShloMosaic.PureOps.Ideal
import Idealize.ShloMosaic.Lib.ValueIdx

noncomputable section

open scoped BigOperators

namespace Cert.LstmCell

open Idealize.ShloMosaic Idealize.ShloMosaic.ValueIdx

/-- A vector of length 4096. -/
abbrev VecS : Shape := ⟨1, ![4096]⟩
/-- A 4096 × 4096 weight matrix. -/
abbrev MatS : Shape := ⟨2, ![4096, 4096]⟩
/-- A column of 4096 entries. -/
abbrev ColS : Shape := ⟨2, ![4096, 1]⟩
/-- A row of 4096 entries under two unit axes. -/
abbrev RowS : Shape := ⟨3, ![1, 1, 4096]⟩

/-- A gate's pre-activation at row `r`: the row of `W` against `x`, plus the row of `U` against `h`, plus the bias. -/
def preact (x h : VecS.Idx → EReal) (W U : MatS.Idx → EReal) (b : ColS.Idx → EReal) (r : Fin 4096) : EReal :=
  (∑ k : Fin 4096, W (ix2 r k) * x (ix1 k)) + (∑ k : Fin 4096, U (ix2 r k) * h (ix1 k)) + b (ix2 r (0 : Fin 1))

/-- A gate at row `r`: the logistic of its pre-activation. -/
def gate (x h : VecS.Idx → EReal) (W U : MatS.Idx → EReal) (b : ColS.Idx → EReal) (r : Fin 4096) : EReal :=
  Ideal.logistic (preact x h W U b r)

/-- The new cell value at row `r`: forget gate times old cell, plus input gate times candidate. -/
def cellNext (x h c : VecS.Idx → EReal) (Wi Wf Wg Ui Uf Ug : MatS.Idx → EReal) (bi bf bg : ColS.Idx → EReal)
    (r : Fin 4096) : EReal :=
  gate x h Wf Uf bf r * c (ix1 r) + gate x h Wi Ui bi r * gate x h Wg Ug bg r

/-- The new hidden value at row `r`: output gate times the hyperbolic tangent of the new cell value. -/
def hiddenNext (x h c : VecS.Idx → EReal) (Wi Wf Wg Wo Ui Uf Ug Uo : MatS.Idx → EReal) (bi bf bg bo : ColS.Idx → EReal)
    (r : Fin 4096) : EReal :=
  gate x h Wo Uo bo r * Ideal.tanh (cellNext x h c Wi Wf Wg Ui Uf Ug bi bf bg r)

/-- The new cell values laid out as a column. -/
def cellCol (x h c : VecS.Idx → EReal) (Wi Wf Wg Ui Uf Ug : MatS.Idx → EReal) (bi bf bg : ColS.Idx → EReal) :
    ColS.Idx → EReal :=
  fun j => cellNext x h c Wi Wf Wg Ui Uf Ug bi bf bg (j 0)

/-- The new hidden values laid out as a row under two unit axes. -/
def hiddenRow (x h c : VecS.Idx → EReal) (Wi Wf Wg Wo Ui Uf Ug Uo : MatS.Idx → EReal) (bi bf bg bo : ColS.Idx → EReal) :
    RowS.Idx → EReal :=
  fun j => hiddenNext x h c Wi Wf Wg Wo Ui Uf Ug Uo bi bf bg bo (j 2)

/-- The f32 pattern of `1.0` denotes the extended real `1`. -/
theorem ofBits_one_f32 : Ideal.ofBits .f32 0x3F800000#32 = 1 := by
  simp [Ideal.ofBits, Ideal.ieee, -EReal.coe_mul]; norm_num

/-- The logistic written out with the host's quotient: `1 / (1 + e^(-z))`, the `1`s given by their f32 pattern. -/
theorem logistic_spelled (z : EReal) :
    Ideal.div (Ideal.ofBits .f32 0x3F800000#32) (Ideal.ofBits .f32 0x3F800000#32 + Ideal.exp (-z)) = Ideal.logistic z := by
  rw [ofBits_one_f32]; rfl

/-- A column index is determined by its row coordinate. -/
theorem col_eq (j : ColS.Idx) : j = ix2 (j 0) (0 : Fin 1) := by
  funext a
  match a with
  | ⟨0, _⟩ => rfl
  | ⟨1, h1⟩ => exact Fin.ext (by have hlt : (j ⟨1, h1⟩).val < 1 := (j ⟨1, h1⟩).isLt; show (j ⟨1, h1⟩).val = 0; omega)

end Cert.LstmCell

end
-- ==== Proof.RefCell.lean ====
/-
  The reference's run, read index by index, is the LSTM cell step of CellSpec.

  On the host every mat-vec product is a dot_general of a 4096 × 4096 matrix with the input (or hidden)
  vector reshaped to a column; read at column index (r, 0) it is the sum over k of W[r,k] · x[k]. Each gate
  is then  1 / (1 + exp(-(W·x + U·h + b)))  spelled with the host's negate, exponential, add and divide, the
  two ones broadcast from the f32 pattern of 1.0: on the extended reals that is the logistic itself. The new
  cell column is f · c + i · g entrywise, and the hidden result is o · tanh(cell) reshaped from a column
  [4096, 1] to a row [1, 1, 4096], which keeps the row-major position: entry (0, 0, r) is entry (r, 0).
-/
import proofs.«145973_j86380382257772_1_alg».proof.Proof.Gen.ReferenceIdeal.Read
import proofs.«145973_j86380382257772_1_alg».proof.Proof.CellSpec

noncomputable section

open scoped BigOperators

namespace Cert.ReferenceIdeal.RefCell

open Cert.ReferenceIdeal Cert.ReferenceIdeal.Gen Cert.ReferenceIdeal.Read Idealize.ShloMosaic Idealize.ShloMosaic.TcCoe
open Idealize.ShloMosaic.ValueIdx Cert.LstmCell

/-- A host mat-vec product — the matrix against the vector reshaped to a column — read at a column index:
    row `i 0` of the matrix against the vector. -/
theorem matvec_apply (x : (⟨S4096, .f32⟩ : BufTy).Contents (Elt Ideal)) (W : (⟨S4096x4096, .f32⟩ : BufTy).Contents (Elt Ideal))
    (i : S4096x1.Idx) :
    val_main_v3 (F := Ideal) x W i = ∑ k : Fin 4096, W (ix2 (i 0) k) * x (ix1 k) := by
  refine (val_main_v3_apply x W i).trans (Finset.sum_congr rfl fun k _ => ?_)
  rw [val_main_v0_apply]
  have el : lidx_main_v3 i k = ix2 (i 0) k := funext fun a => by
    match a with
    | ⟨0, _⟩ => rfl
    | ⟨1, _⟩ => rfl
  have er : idx_main_v0 (ridx_main_v3 i k) = ix1 k := funext fun a => by
    match a with
    | ⟨0, _⟩ => exact Fin.ext (by have h1 : (i 1).val < 1 := (i 1).isLt; show k.val * 1 + (i 1).val = k.val; omega)
  rw [el, er]
  rfl

/-- The host's spelling of a gate — `1 / (1 + exp(-(W·x + U·h + b)))`, the ones broadcast from the pattern of 1.0 —
    read at a column index is the gate at its row. -/
theorem gate_apply (x h : (⟨S4096, .f32⟩ : BufTy).Contents (Elt Ideal)) (W U : (⟨S4096x4096, .f32⟩ : BufTy).Contents (Elt Ideal))
    (b : (⟨S4096x1, .f32⟩ : BufTy).Contents (Elt Ideal)) (i : S4096x1.Idx) :
    val_main_v12 (F := Ideal) x h W U b i = gate x h W U b (i 0) := by
  show Ideal.div (val_main_v11 (F := Ideal) i)
      (val_main_v9 (F := Ideal) i + Ideal.exp (-(val_main_v3 (F := Ideal) x W i + val_main_v3 (F := Ideal) h U i + b i))) = _
  rw [val_main_v11_apply, val_main_cst_0_apply, val_main_v9_apply, val_main_cst_apply, Ideal.ofBits_def, matvec_apply,
    matvec_apply, logistic_spelled]
  have hb : b i = b (ix2 (i 0) (0 : Fin 1)) := congrArg b (col_eq i)
  rw [hb]
  rfl

/-- The old cell vector reshaped to a column reads, at a column index, the vector at the row. -/
theorem column_apply (c : (⟨S4096, .f32⟩ : BufTy).Contents (Elt Ideal)) (i : S4096x1.Idx) :
    val_main_v2 (F := Ideal) c i = c (ix1 (i 0)) := by
  refine (val_main_v2_apply c i).trans (congrArg c (funext fun a => ?_))
  match a with
  | ⟨0, _⟩ => exact Fin.ext (by have h1 : (i 1).val < 1 := (i 1).isLt; show (i 0).val * 1 + (i 1).val = (i 0).val; omega)

/-- The reference's new cell column is `cellCol` of the arguments. -/
theorem cell_eq (x0 x1 x2 : (⟨S4096, .f32⟩ : BufTy).Contents (Elt Ideal)) (x3 x4 x5 x7 x8 x9 : (⟨S4096x4096, .f32⟩ : BufTy).Contents (Elt Ideal))
    (x11 x12 x13 : (⟨S4096x1, .f32⟩ : BufTy).Contents (Elt Ideal)) :
    val_main_v45 (F := Ideal) x0 x1 x2 x3 x4 x5 x7 x8 x9 x11 x12 x13 = cellCol x0 x1 x2 x3 x4 x5 x7 x8 x9 x11 x12 x13 := by
  funext i
  show val_main_v22 (F := Ideal) x0 x1 x4 x8 x12 i * val_main_v2 (F := Ideal) x2 i
      + val_main_v12 (F := Ideal) x0 x1 x3 x7 x11 i * val_main_v32 (F := Ideal) x0 x1 x5 x9 x13 i = _
  rw [show val_main_v22 (F := Ideal) x0 x1 x4 x8 x12 i = gate x0 x1 x4 x8 x12 (i 0) from gate_apply x0 x1 x4 x8 x12 i,
    show val_main_v12 (F := Ideal) x0 x1 x3 x7 x11 i = gate x0 x1 x3 x7 x11 (i 0) from gate_apply x0 x1 x3 x7 x11 i,
    show val_main_v32 (F := Ideal) x0 x1 x5 x9 x13 i = gate x0 x1 x5 x9 x13 (i 0) from gate_apply x0 x1 x5 x9 x13 i,
    show val_main_v2 (F := Ideal) x2 i = x2 (ix1 (i 0)) from column_apply x2 i]
  rfl

/-- The reference's hidden result is `hiddenRow` of the arguments. -/
theorem hidden_eq (x0 x1 x2 : (⟨S4096, .f32⟩ : BufTy).Contents (Elt Ideal)) (x3 x4 x5 x6 x7 x8 x9 x10 : (⟨S4096x4096, .f32⟩ : BufTy).Contents (Elt Ideal))
    (x11 x12 x13 x14 : (⟨S4096x1, .f32⟩ : BufTy).Contents (Elt Ideal)) :
    val_main_v48 (F := Ideal) x0 x1 x2 x3 x4 x5 x6 x7 x8 x9 x10 x11 x12 x13 x14
      = hiddenRow x0 x1 x2 x3 x4 x5 x6 x7 x8 x9 x10 x11 x12 x13 x14 := by
  funext j
  rw [val_main_v48_apply]
  show val_main_v42 (F := Ideal) x0 x1 x6 x10 x14 (idx_main_v48 j)
      * Ideal.tanh (val_main_v45 (F := Ideal) x0 x1 x2 x3 x4 x5 x7 x8 x9 x11 x12 x13 (idx_main_v48 j)) = _
  rw [show val_main_v42 (F := Ideal) x0 x1 x6 x10 x14 (idx_main_v48 j) = gate x0 x1 x6 x10 x14 (idx_main_v48 j 0)
      from gate_apply x0 x1 x6 x10 x14 (idx_main_v48 j), cell_eq]
  have hr : idx_main_v48 j 0 = j 2 := Fin.ext (by
    have h0 : (j 0).val < 1 := (j 0).isLt; have h1 : (j 1).val < 1 := (j 1).isLt
    show (((j 0).val * 1 + (j 1).val) * 4096 + (j 2).val) / 1 = (j 2).val; omega)
  unfold cellCol hiddenRow hiddenNext
  rw [hr]

end Cert.ReferenceIdeal.RefCell

end
-- ==== Proof.BlockCell.lean ====
/-
  What one grid point of the kernel computes, as a function of the blocks it loads, read index by index.

  A point holds the whole input column X and hidden column H (shape [4096, 1]), a 128-row tile of each of the
  eight weight matrices (shape [128, 4096]), and 128-entry tiles of the old cell column and of the four bias
  columns (shape [128, 1]). On the extended reals the narrowing of the operands to bf16 is the identity and a
  matrix product into a zero accumulator is the plain sum over the contraction index, so each gate at local
  row p is the logistic of  (∑ₖ Wb[p,k] · X[k,0]) + (∑ₖ Ub[p,k] · H[k,0]) + bb[p,0].  The cell tile is
  f · c + i · g entrywise; the hidden tile is o · tanh(cell) transposed to a row [1, 128] and given a leading
  unit axis, so its entry (0, 0, p) is the column's entry (p, 0).
-/
import proofs.«145973_j86380382257772_1_alg».proof.Proof.Gen.KernelIdeal.Frame
import proofs.«145973_j86380382257772_1_alg».proof.Proof.CellSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockCell

open Cert.KernelIdeal Cert.KernelIdeal.Gen Idealize.ShloMosaic Idealize.ShloMosaic.TcCoe
open Idealize.ShloMosaic.ValueIdx

/-! ## A tile's product with a column, as a sum -/

theorem lhs_axis0 (i : S128x1.Idx) (q : dot_S128x4096_S4096x1_S128x1_1_0_0_1_n_n.contr.Idx) :
    (dot_S128x4096_S4096x1_S128x1_1_0_0_1_n_n.lhsIdx i q 0).val = (i 0).val := by
  unfold DotDims.lhsIdx
  rw [dif_neg (show ¬(0 : Fin S128x4096.rank) ∈ dot_S128x4096_S4096x1_S128x1_1_0_0_1_n_n.lhsBatch by decide), dif_pos (show (0 : Fin S128x4096.rank) ∈ dot_S128x4096_S4096x1_S128x1_1_0_0_1_n_n.lhsNonContracting by decide)]
  rfl
theorem lhs_axis1 (i : S128x1.Idx) (q : dot_S128x4096_S4096x1_S128x1_1_0_0_1_n_n.contr.Idx) :
    (dot_S128x4096_S4096x1_S128x1_1_0_0_1_n_n.lhsIdx i q 1).val = (q ⟨0, by decide⟩).val :=
  dot_S128x4096_S4096x1_S128x1_1_0_0_1_n_n.lhsIdx_val_of_single rfl i q
theorem rhs_axis0 (i : S128x1.Idx) (q : dot_S128x4096_S4096x1_S128x1_1_0_0_1_n_n.contr.Idx) :
    (dot_S128x4096_S4096x1_S128x1_1_0_0_1_n_n.rhsIdx i q 0).val = (q ⟨0, by decide⟩).val :=
  dot_S128x4096_S4096x1_S128x1_1_0_0_1_n_n.rhsIdx_val_of_single rfl i q
theorem rhs_axis1 (i : S128x1.Idx) (q : dot_S128x4096_S4096x1_S128x1_1_0_0_1_n_n.contr.Idx) :
    (dot_S128x4096_S4096x1_S128x1_1_0_0_1_n_n.rhsIdx i q 1).val = (i 1).val := by
  unfold DotDims.rhsIdx
  rw [dif_neg (show ¬(1 : Fin S4096x1.rank) ∈ dot_S128x4096_S4096x1_S128x1_1_0_0_1_n_n.rhsBatch by decide), dif_pos (show (1 : Fin S4096x1.rank) ∈ dot_S128x4096_S4096x1_S128x1_1_0_0_1_n_n.rhsNonContracting by decide)]
  rfl

/-- A 128 × 4096 tile times a 4096 × 1 column, accumulated into zero, read at local row `p`: the row against the column. -/
theorem tile_matvec (A : FVec Ideal S128x4096 .bf16) (B : FVec Ideal S4096x1 .bf16) (p : Fin 128) :
    matmul dot_S128x4096_S4096x1_S128x1_1_0_0_1_n_n none A B (constant S128x1 .f32 0x00000000#32) (ix2 p (0 : Fin 1))
      = ∑ k : Fin 4096, A (ix2 p k) * B (ix2 k (0 : Fin 1)) := by
  simp only [matmul]
  rw [Ideal.matmul_constant_zero_apply, ← Equiv.sum_comp (contrEquiv1 dot_S128x4096_S4096x1_S128x1_1_0_0_1_n_n 4096 rfl rfl).symm]
  refine Finset.sum_congr rfl fun k _ => ?_
  have hk := contrEquiv1_symm_val dot_S128x4096_S4096x1_S128x1_1_0_0_1_n_n 4096 rfl rfl k
  have el : dot_S128x4096_S4096x1_S128x1_1_0_0_1_n_n.lhsIdx (ix2 p (0 : Fin 1)) ((contrEquiv1 dot_S128x4096_S4096x1_S128x1_1_0_0_1_n_n 4096 rfl rfl).symm k) = ix2 p k := funext fun a => Fin.ext (by
    match a with
    | ⟨0, _⟩ => exact lhs_axis0 _ _
    | ⟨1, _⟩ => exact (lhs_axis1 _ _).trans hk)
  have er : dot_S128x4096_S4096x1_S128x1_1_0_0_1_n_n.rhsIdx (ix2 p (0 : Fin 1)) ((contrEquiv1 dot_S128x4096_S4096x1_S128x1_1_0_0_1_n_n 4096 rfl rfl).symm k) = ix2 k (0 : Fin 1) := funext fun a => Fin.ext (by
    match a with
    | ⟨0, _⟩ => exact (rhs_axis0 _ _).trans hk
    | ⟨1, _⟩ => exact rhs_axis1 _ _)
  rw [el, er]

/-! ## The gates, the cell tile and the hidden tile of one point -/

/-- A gate of one point at local row `p`, from the whole columns and the point's tiles. -/
def tileGate (X H : S4096x1.Idx → EReal) (Wb Ub : S128x4096.Idx → EReal) (bb : S128x1.Idx → EReal) (p : Fin 128) : EReal :=
  Ideal.logistic ((∑ k : Fin 4096, Wb (ix2 p k) * X (ix2 k (0 : Fin 1))) + (∑ k : Fin 4096, Ub (ix2 p k) * H (ix2 k (0 : Fin 1)))
    + bb (ix2 p (0 : Fin 1)))

/-- The new cell value of one point at local row `p`. -/
def tileCell (X H : S4096x1.Idx → EReal) (Cb : S128x1.Idx → EReal) (Wib Wfb Wgb Uib Ufb Ugb : S128x4096.Idx → EReal)
    (bib bfb bgb : S128x1.Idx → EReal) (p : Fin 128) : EReal :=
  tileGate X H Wfb Ufb bfb p * Cb (ix2 p (0 : Fin 1)) + tileGate X H Wib Uib bib p * tileGate X H Wgb Ugb bgb p

/-- The new hidden value of one point at local row `p`. -/
def tileHidden (X H : S4096x1.Idx → EReal) (Cb : S128x1.Idx → EReal) (Wib Wfb Wgb Wob Uib Ufb Ugb Uob : S128x4096.Idx → EReal)
    (bib bfb bgb bob : S128x1.Idx → EReal) (p : Fin 128) : EReal :=
  tileGate X H Wob Uob bob p * Ideal.tanh (tileCell X H Cb Wib Wfb Wgb Uib Ufb Ugb bib bfb bgb p)

/-- The column narrowed to bf16 is the column: a shape cast to the same shape, then the identity. -/
theorem narrowed_x (X : Vec Ideal S4096x1 .f32) : k0_pay3 (F := Ideal) X = X := by
  unfold k0_pay3
  funext i
  show shapeCast S4096x1 X shapeCasts_S4096x1_S4096x1 i = X i
  rw [shapeCast_self]
theorem narrowed_h (H : Vec Ideal S4096x1 .f32) : k0_pay4 (F := Ideal) H = H := by
  unfold k0_pay4
  funext i
  show shapeCast S4096x1 H shapeCasts_S4096x1_S4096x1 i = H i
  rw [shapeCast_self]
theorem cell_tile_in (C : Vec Ideal S128x1 .f32) : k0_pay5 (F := Ideal) C = C := by
  unfold k0_pay5
  exact shapeCast_self _ _

/-- The logistic of two tile products and a bias, read at local row `p`. -/
theorem gate_at (X H : Vec Ideal S4096x1 .f32) (Wb Ub : Vec Ideal S128x4096 .f32) (bb : Vec Ideal S128x1 .f32) (p : Fin 128) :
    logistic (addf (addf
        (matmul dot_S128x4096_S4096x1_S128x1_1_0_0_1_n_n none (truncf .bf16 Wb bitsLt_bf16_f32) (k0_pay3 (F := Ideal) X) (constant S128x1 .f32 0x00000000#32))
        (matmul dot_S128x4096_S4096x1_S128x1_1_0_0_1_n_n none (truncf .bf16 Ub bitsLt_bf16_f32) (k0_pay4 (F := Ideal) H) (constant S128x1 .f32 0x00000000#32))) bb)
      (ix2 p (0 : Fin 1)) = tileGate X H Wb Ub bb p := by
  show Ideal.logistic (matmul dot_S128x4096_S4096x1_S128x1_1_0_0_1_n_n none (truncf .bf16 Wb bitsLt_bf16_f32) (k0_pay3 (F := Ideal) X) (constant S128x1 .f32 0x00000000#32) (ix2 p (0 : Fin 1))
    + matmul dot_S128x4096_S4096x1_S128x1_1_0_0_1_n_n none (truncf .bf16 Ub bitsLt_bf16_f32) (k0_pay4 (F := Ideal) H) (constant S128x1 .f32 0x00000000#32) (ix2 p (0 : Fin 1))
    + bb (ix2 p (0 : Fin 1))) = _
  rw [tile_matvec, tile_matvec, narrowed_x, narrowed_h]
  rfl

/-- The input gate's payload at local row `p`. -/
theorem pay_i_at (X H : Vec Ideal S4096x1 .f32) (Wb Ub : Vec Ideal S128x4096 .f32) (bb : Vec Ideal S128x1 .f32) (p : Fin 128) :
    k0_pay6 (F := Ideal) X H Wb Ub bb (ix2 p (0 : Fin 1)) = tileGate X H Wb Ub bb p :=
  gate_at X H Wb Ub bb p
/-- The forget gate's payload at local row `p`. -/
theorem pay_f_at (X H : Vec Ideal S4096x1 .f32) (Wb Ub : Vec Ideal S128x4096 .f32) (bb : Vec Ideal S128x1 .f32) (p : Fin 128) :
    k0_pay7 (F := Ideal) X H Wb Ub bb (ix2 p (0 : Fin 1)) = tileGate X H Wb Ub bb p :=
  gate_at X H Wb Ub bb p

/-- The stored cell tile at local row `p`. -/
theorem pay_cell_at (X H : Vec Ideal S4096x1 .f32) (Cb : Vec Ideal S128x1 .f32) (Wib Wfb Wgb Uib Ufb Ugb : Vec Ideal S128x4096 .f32)
    (bib bfb bgb : Vec Ideal S128x1 .f32) (p : Fin 128) :
    k0_pay1 (F := Ideal) (k0_pay3 X) (k0_pay4 H) (k0_pay5 Cb) (k0_pay6 X H Wib Uib bib) (k0_pay7 X H Wfb Ufb bfb) (k0_pay8 Wgb) (k0_pay9 Ugb)
        (constant S128x1 .f32 0x00000000#32) bgb (ix2 p (0 : Fin 1))
      = tileCell X H Cb Wib Wfb Wgb Uib Ufb Ugb bib bfb bgb p := by
  show k0_pay7 (F := Ideal) X H Wfb Ufb bfb (ix2 p (0 : Fin 1)) * k0_pay5 (F := Ideal) Cb (ix2 p (0 : Fin 1))
      + k0_pay6 (F := Ideal) X H Wib Uib bib (ix2 p (0 : Fin 1))
        * logistic (addf (addf
            (matmul dot_S128x4096_S4096x1_S128x1_1_0_0_1_n_n none (truncf .bf16 Wgb bitsLt_bf16_f32) (k0_pay3 (F := Ideal) X) (constant S128x1 .f32 0x00000000#32))
            (matmul dot_S128x4096_S4096x1_S128x1_1_0_0_1_n_n none (truncf .bf16 Ugb bitsLt_bf16_f32) (k0_pay4 (F := Ideal) H) (constant S128x1 .f32 0x00000000#32))) bgb)
          (ix2 p (0 : Fin 1)) = _
  rw [pay_f_at, pay_i_at, gate_at, cell_tile_in]
  rfl

/-- The stored hidden tile at `(0, 0, p)`. -/
theorem pay_hidden_at (X H : Vec Ideal S4096x1 .f32) (Cb : Vec Ideal S128x1 .f32) (Wib Wfb Wgb Wob Uib Ufb Ugb Uob : Vec Ideal S128x4096 .f32)
    (bib bfb bgb bob : Vec Ideal S128x1 .f32) (p : Fin 128) :
    k0_pay2 (F := Ideal) (k0_pay3 X) (k0_pay4 H) (k0_pay5 Cb) (k0_pay6 X H Wib Uib bib) (k0_pay7 X H Wfb Ufb bfb) (k0_pay8 Wgb) (k0_pay9 Ugb)
        (constant S128x1 .f32 0x00000000#32) bgb Wob Uob bob (ix3 (0 : Fin 1) (0 : Fin 1) p)
      = tileHidden X H Cb Wib Wfb Wgb Wob Uib Ufb Ugb Uob bib bfb bgb bob p := by
  unfold k0_pay2
  dsimp only
  rw [shapeCast_ab_1ab_apply, transpose_ix2_apply]
  show logistic (addf (addf
        (matmul dot_S128x4096_S4096x1_S128x1_1_0_0_1_n_n none (truncf .bf16 Wob bitsLt_bf16_f32) (k0_pay3 (F := Ideal) X) (constant S128x1 .f32 0x00000000#32))
        (matmul dot_S128x4096_S4096x1_S128x1_1_0_0_1_n_n none (truncf .bf16 Uob bitsLt_bf16_f32) (k0_pay4 (F := Ideal) H) (constant S128x1 .f32 0x00000000#32))) bob)
      (ix2 p (0 : Fin 1))
    * Ideal.tanh (k0_pay1 (F := Ideal) (k0_pay3 X) (k0_pay4 H) (k0_pay5 Cb) (k0_pay6 X H Wib Uib bib) (k0_pay7 X H Wfb Ufb bfb) (k0_pay8 Wgb) (k0_pay9 Ugb)
        (constant S128x1 .f32 0x00000000#32) bgb (ix2 p (0 : Fin 1))) = _
  rw [gate_at, pay_cell_at]
  rfl

/-! ## The two output tiles of one point, from its loaded blocks -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The cell tile a point leaves in its output buffer, at local row `p`. -/
theorem cell_out_at (x0 x1 : Vec Ideal S4096x1 .f32) (x2 : Vec Ideal S128x1 .f32) (x3 x4 x5 x6 x7 x8 x9 x10 : Vec Ideal S128x4096 .f32)
    (x11 x12 x13 x14 : Vec Ideal S128x1 .f32) (p : Fin 128) :
    out0_16 (F := Ideal) x0 x1 x2 x3 x4 x5 x6 x7 x8 x9 x10 x11 x12 x13 x14 (ix2 p (0 : Fin 1))
      = tileCell x0 x1 x2 x3 x4 x5 x7 x8 x9 x11 x12 x13 p := by
  unfold out0_16
  rw [View.canon_unit_zero zeros2]
  simp only [View.ld_unit_zero (S := S4096x1) zeros2, View.ld_unit_zero (S := S128x1) zeros2, View.ld_unit_zero (S := S128x4096) zeros2]
  exact pay_cell_at x0 x1 x2 x3 x4 x5 x7 x8 x9 x11 x12 x13 p

/-- The hidden tile a point leaves in its output buffer, at `(0, 0, p)`. -/
theorem hidden_out_at (x0 x1 : Vec Ideal S4096x1 .f32) (x2 : Vec Ideal S128x1 .f32) (x3 x4 x5 x6 x7 x8 x9 x10 : Vec Ideal S128x4096 .f32)
    (x11 x12 x13 x14 : Vec Ideal S128x1 .f32) (p : Fin 128) :
    out0_15 (F := Ideal) x0 x1 x2 x3 x4 x5 x6 x7 x8 x9 x10 x11 x12 x13 x14 (ix3 (0 : Fin 1) (0 : Fin 1) p)
      = tileHidden x0 x1 x2 x3 x4 x5 x6 x7 x8 x9 x10 x11 x12 x13 x14 p := by
  unfold out0_15
  rw [View.canon_unit_zero zeros3]
  simp only [View.ld_unit_zero (S := S4096x1) zeros2, View.ld_unit_zero (S := S128x1) zeros2, View.ld_unit_zero (S := S128x4096) zeros2]
  exact pay_hidden_at x0 x1 x2 x3 x4 x5 x6 x7 x8 x9 x10 x11 x12 x13 x14 p

/-! ## A point's tile values are the cell step's values at the tile's rows

  Stated over any columns, tiles and arrays related entry by entry: the column `X` holds the vector `x`, row `p` of a
  tile is row `r` of its matrix, entry `p` of a bias or cell tile is entry `r` of its column or vector. -/

open Cert.LstmCell

theorem tileGate_eq (X H : S4096x1.Idx → EReal) (Wb Ub : S128x4096.Idx → EReal) (bb : S128x1.Idx → EReal)
    (x h : VecS.Idx → EReal) (W U : MatS.Idx → EReal) (b : ColS.Idx → EReal) (p : Fin 128) (r : Fin 4096)
    (hX : ∀ k : Fin 4096, X (ix2 k (0 : Fin 1)) = x (ix1 k)) (hH : ∀ k : Fin 4096, H (ix2 k (0 : Fin 1)) = h (ix1 k))
    (hW : ∀ k : Fin 4096, Wb (ix2 p k) = W (ix2 r k)) (hU : ∀ k : Fin 4096, Ub (ix2 p k) = U (ix2 r k))
    (hb : bb (ix2 p (0 : Fin 1)) = b (ix2 r (0 : Fin 1))) :
    tileGate X H Wb Ub bb p = gate x h W U b r := by
  unfold tileGate gate preact
  simp only [hX, hH, hW, hU, hb]

theorem tileCell_eq (X H : S4096x1.Idx → EReal) (Cb : S128x1.Idx → EReal) (Wib Wfb Wgb Uib Ufb Ugb : S128x4096.Idx → EReal)
    (bib bfb bgb : S128x1.Idx → EReal)
    (x h c : VecS.Idx → EReal) (Wi Wf Wg Ui Uf Ug : MatS.Idx → EReal) (bi bf bg : ColS.Idx → EReal) (p : Fin 128) (r : Fin 4096)
    (hX : ∀ k : Fin 4096, X (ix2 k (0 : Fin 1)) = x (ix1 k)) (hH : ∀ k : Fin 4096, H (ix2 k (0 : Fin 1)) = h (ix1 k))
    (hC : Cb (ix2 p (0 : Fin 1)) = c (ix1 r))
    (hWi : ∀ k : Fin 4096, Wib (ix2 p k) = Wi (ix2 r k)) (hWf : ∀ k : Fin 4096, Wfb (ix2 p k) = Wf (ix2 r k))
    (hWg : ∀ k : Fin 4096, Wgb (ix2 p k) = Wg (ix2 r k))
    (hUi : ∀ k : Fin 4096, Uib (ix2 p k) = Ui (ix2 r k)) (hUf : ∀ k : Fin 4096, Ufb (ix2 p k) = Uf (ix2 r k))
    (hUg : ∀ k : Fin 4096, Ugb (ix2 p k) = Ug (ix2 r k))
    (hbi : bib (ix2 p (0 : Fin 1)) = bi (ix2 r (0 : Fin 1))) (hbf : bfb (ix2 p (0 : Fin 1)) = bf (ix2 r (0 : Fin 1)))
    (hbg : bgb (ix2 p (0 : Fin 1)) = bg (ix2 r (0 : Fin 1))) :
    tileCell X H Cb Wib Wfb Wgb Uib Ufb Ugb bib bfb bgb p = cellNext x h c Wi Wf Wg Ui Uf Ug bi bf bg r := by
  unfold tileCell cellNext
  rw [tileGate_eq X H Wfb Ufb bfb x h Wf Uf bf p r hX hH hWf hUf hbf, tileGate_eq X H Wib Uib bib x h Wi Ui bi p r hX hH hWi hUi hbi,
    tileGate_eq X H Wgb Ugb bgb x h Wg Ug bg p r hX hH hWg hUg hbg, hC]

theorem tileHidden_eq (X H : S4096x1.Idx → EReal) (Cb : S128x1.Idx → EReal) (Wib Wfb Wgb Wob Uib Ufb Ugb Uob : S128x4096.Idx → EReal)
    (bib bfb bgb bob : S128x1.Idx → EReal)
    (x h c : VecS.Idx → EReal) (Wi Wf Wg Wo Ui Uf Ug Uo : MatS.Idx → EReal) (bi bf bg bo : ColS.Idx → EReal) (p : Fin 128) (r : Fin 4096)
    (hX : ∀ k : Fin 4096, X (ix2 k (0 : Fin 1)) = x (ix1 k)) (hH : ∀ k : Fin 4096, H (ix2 k (0 : Fin 1)) = h (ix1 k))
    (hC : Cb (ix2 p (0 : Fin 1)) = c (ix1 r))
    (hWi : ∀ k : Fin 4096, Wib (ix2 p k) = Wi (ix2 r k)) (hWf : ∀ k : Fin 4096, Wfb (ix2 p k) = Wf (ix2 r k))
    (hWg : ∀ k : Fin 4096, Wgb (ix2 p k) = Wg (ix2 r k)) (hWo : ∀ k : Fin 4096, Wob (ix2 p k) = Wo (ix2 r k))
    (hUi : ∀ k : Fin 4096, Uib (ix2 p k) = Ui (ix2 r k)) (hUf : ∀ k : Fin 4096, Ufb (ix2 p k) = Uf (ix2 r k))
    (hUg : ∀ k : Fin 4096, Ugb (ix2 p k) = Ug (ix2 r k)) (hUo : ∀ k : Fin 4096, Uob (ix2 p k) = Uo (ix2 r k))
    (hbi : bib (ix2 p (0 : Fin 1)) = bi (ix2 r (0 : Fin 1))) (hbf : bfb (ix2 p (0 : Fin 1)) = bf (ix2 r (0 : Fin 1)))
    (hbg : bgb (ix2 p (0 : Fin 1)) = bg (ix2 r (0 : Fin 1))) (hbo : bob (ix2 p (0 : Fin 1)) = bo (ix2 r (0 : Fin 1))) :
    tileHidden X H Cb Wib Wfb Wgb Wob Uib Ufb Ugb Uob bib bfb bgb bob p
      = hiddenNext x h c Wi Wf Wg Wo Ui Uf Ug Uo bi bf bg bo r := by
  unfold tileHidden hiddenNext
  rw [tileGate_eq X H Wob Uob bob x h Wo Uo bo p r hX hH hWo hUo hbo,
    tileCell_eq X H Cb Wib Wfb Wgb Uib Ufb Ugb bib bfb bgb x h c Wi Wf Wg Ui Uf Ug bi bf bg p r hX hH hC hWi hWf hWg hUi hUf hUg hbi hbf hbg]

end Cert.KernelIdeal.BlockCell

end
-- ==== Proof.ArrayCell.lean ====
/-
  The kernel's two result arrays after the run are the LSTM cell step of CellSpec, index by index.

  The grid has 32 points; point t works on rows 128·t … 128·t + 127. Its windows: the input and hidden columns
  whole (block index (0, 0) at every point), row tile t of each of the eight weight matrices (block index (t, 0)),
  entries 128·t … of the old cell column and of the four bias columns (block index (t, 0)); it writes back
  entries 128·t … of the new cell column (block index (t, 0)) and of the hidden row (block index (0, 0, t)).
  An element of a block sits in its array at block index × block size + its own coordinate, so local row p of
  point t is global row 128·t + p everywhere, and what point t writes back is the cell step's values at those
  rows. The 32 blocks tile each result array (row r lies in the block of point r / 128), so each array ends
  holding the cell step's values at every index. The input, hidden and old cell columns are the host's reshapes
  of the argument vectors: entry (k, 0) of the column is entry k of the vector.
-/
import proofs.«145973_j86380382257772_1_alg».proof.Proof.Gen.KernelIdeal.Value
import proofs.«145973_j86380382257772_1_alg».proof.Proof.BlockCell
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.ArrayCell

open Cert.KernelIdeal Cert.KernelIdeal.Gen Cert.KernelIdeal.BlockCell Cert.LstmCell Idealize.ShloMosaic.ValueIdx

variable (m : (ℓ : Loc nD τ sig) → Buf (Elt Ideal) ℓ) (ρ : Dev nD → PrngReg)

/-- The global row of local row `p` at point `t`. -/
def row (t : Fin cfg0.N) (p : Fin 128) : Fin 4096 :=
  ⟨128 * t.val + p.val, by have h := t.isLt; have hN : cfg0.N = 32 := N_0; omega⟩

/-! ## The block index of every window at every point (decided over the 32 points) -/

theorem at0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)
theorem at1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem at2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem at3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem at4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem at5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem at6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)
theorem at7 : ∀ t : Fin cfg0.N, win0_7.index t (0 : Fin 2) = t.val ∧ win0_7.index t (1 : Fin 2) = 0 :=
  (by decide +kernel : ∀ t : Fin grid0.N, win0_7.index t (0 : Fin 2) = t.val ∧ win0_7.index t (1 : Fin 2) = 0)
theorem at8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem at9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)
theorem at10 : ∀ t : Fin cfg0.N, win0_10.index t (0 : Fin 2) = t.val ∧ win0_10.index t (1 : Fin 2) = 0 :=
  (by decide +kernel : ∀ t : Fin grid0.N, win0_10.index t (0 : Fin 2) = t.val ∧ win0_10.index t (1 : Fin 2) = 0)
theorem at11 : ∀ t : Fin cfg0.N, win0_11.index t (0 : Fin 2) = t.val ∧ win0_11.index t (1 : Fin 2) = 0 :=
  (by decide +kernel : ∀ t : Fin grid0.N, win0_11.index t (0 : Fin 2) = t.val ∧ win0_11.index t (1 : Fin 2) = 0)
theorem at12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)
theorem at13 : ∀ t : Fin cfg0.N, win0_13.index t (0 : Fin 2) = t.val ∧ win0_13.index t (1 : Fin 2) = 0 :=
  (by decide +kernel : ∀ t : Fin grid0.N, win0_13.index t (0 : Fin 2) = t.val ∧ win0_13.index t (1 : Fin 2) = 0)
theorem at14 : ∀ t : Fin cfg0.N, win0_14.index t (0 : Fin 2) = t.val ∧ win0_14.index t (1 : Fin 2) = 0 :=
  (by decide +kernel : ∀ t : Fin grid0.N, win0_14.index t (0 : Fin 2) = t.val ∧ win0_14.index t (1 : Fin 2) = 0)
theorem at15 : ∀ t : Fin cfg0.N, win0_15.index t (0 : Fin 3) = 0 ∧ win0_15.index t (1 : Fin 3) = 0 ∧ win0_15.index t (2 : Fin 3) = t.val :=
  (by decide +kernel : ∀ t : Fin grid0.N, win0_15.index t (0 : Fin 3) = 0 ∧ win0_15.index t (1 : Fin 3) = 0 ∧ win0_15.index t (2 : Fin 3) = t.val)
theorem at16 : ∀ t : Fin cfg0.N, win0_16.index t (0 : Fin 2) = t.val ∧ win0_16.index t (1 : Fin 2) = 0 :=
  (by decide +kernel : ∀ t : Fin grid0.N, win0_16.index t (0 : Fin 2) = t.val ∧ win0_16.index t (1 : Fin 2) = 0)

/-! ## The three columns the host reshapes before the region -/

/-- A vector reshaped to a column reads, at `(k, 0)`, the vector at `k`. -/
theorem column_at (v : S4096.Idx → EReal) (k : Fin 4096) :
    shapeCast S4096x1 v shapeCasts_S4096_S4096x1 (ix2 k (0 : Fin 1)) = v (ix1 k) :=
  shapeCast_apply v shapeCasts_S4096_S4096x1 _ _ (by
    rw [Shape.rowMajor_val_one, Shape.rowMajor_val_two]; show k.val = k.val * 1 + 0; omega)

theorem x_col (c : Dev nD) (k : Fin 4096) :
    (V m c main_v0 : S4096x1.Idx → EReal) (ix2 k (0 : Fin 1)) = m ((c : Thread nD τ).loc main_arg0) (ix1 k) := by
  have e : (V m c main_v0 : S4096x1.Idx → EReal) = shapeCast S4096x1 (m ((c : Thread nD τ).loc main_arg0)) shapeCasts_S4096_S4096x1 := by
    dsimp only [Gen.V, Gen.hostOps0]; after_results; rfl
  rw [e]; exact column_at _ k
theorem h_col (c : Dev nD) (k : Fin 4096) :
    (V m c main_v1 : S4096x1.Idx → EReal) (ix2 k (0 : Fin 1)) = m ((c : Thread nD τ).loc main_arg1) (ix1 k) := by
  have e : (V m c main_v1 : S4096x1.Idx → EReal) = shapeCast S4096x1 (m ((c : Thread nD τ).loc main_arg1)) shapeCasts_S4096_S4096x1 := by
    dsimp only [Gen.V, Gen.hostOps0]; after_results; rfl
  rw [e]; exact column_at _ k
theorem c_col (c : Dev nD) (k : Fin 4096) :
    (V m c main_v2 : S4096x1.Idx → EReal) (ix2 k (0 : Fin 1)) = m ((c : Thread nD τ).loc main_arg2) (ix1 k) := by
  have e : (V m c main_v2 : S4096x1.Idx → EReal) = shapeCast S4096x1 (m ((c : Thread nD τ).loc main_arg2)) shapeCasts_S4096_S4096x1 := by
    dsimp only [Gen.V, Gen.hostOps0]; after_results; rfl
  rw [e]; exact column_at _ k

/-! ## Each window's block at a point, read at an entry -/

/-- The input column, whole at every point. -/
theorem x_read (c : Dev nD) (t : Fin cfg0.N) (k : Fin 4096) :
    (iblk m c 0 t : Vec Ideal S4096x1 .f32) (ix2 k (0 : Fin 1)) = m ((c : Thread nD τ).loc main_arg0) (ix1 k) := by
  obtain ⟨h0, h1⟩ := at0 t
  unfold iblk
  rw [View.read_apply]
  show V m c main_v0 _ = _
  refine (congrArg (V m c main_v0) (funext fun a => Fin.ext ?_)).trans (x_col m c k)
  match a with
  | ⟨0, _⟩ => show win0_0.index t (0 : Fin 2) * 4096 + 1 * k.val = k.val; rw [h0]; omega
  | ⟨1, _⟩ => show win0_0.index t (1 : Fin 2) * 1 + 1 * 0 = 0; rw [h1]
/-- The hidden column, whole at every point. -/
theorem h_read (c : Dev nD) (t : Fin cfg0.N) (k : Fin 4096) :
    (iblk m c 1 t : Vec Ideal S4096x1 .f32) (ix2 k (0 : Fin 1)) = m ((c : Thread nD τ).loc main_arg1) (ix1 k) := by
  obtain ⟨h0, h1⟩ := at1 t
  unfold iblk
  rw [View.read_apply]
  show V m c main_v1 _ = _
  refine (congrArg (V m c main_v1) (funext fun a => Fin.ext ?_)).trans (h_col m c k)
  match a with
  | ⟨0, _⟩ => show win0_1.index t (0 : Fin 2) * 4096 + 1 * k.val = k.val; rw [h0]; omega
  | ⟨1, _⟩ => show win0_1.index t (1 : Fin 2) * 1 + 1 * 0 = 0; rw [h1]
/-- The old cell column's tile. -/
theorem c_read (c : Dev nD) (t : Fin cfg0.N) (p : Fin 128) :
    (iblk m c 2 t : Vec Ideal S128x1 .f32) (ix2 p (0 : Fin 1)) = m ((c : Thread nD τ).loc main_arg2) (ix1 (row t p)) := by
  obtain ⟨h0, h1⟩ := at2 t
  unfold iblk
  rw [View.read_apply]
  show V m c main_v2 _ = _
  refine (congrArg (V m c main_v2) (funext fun a => Fin.ext ?_)).trans (c_col m c (row t p))
  match a with
  | ⟨0, _⟩ => show win0_2.index t (0 : Fin 2) * 128 + 1 * p.val = 128 * t.val + p.val; rw [h0]; omega
  | ⟨1, _⟩ => show win0_2.index t (1 : Fin 2) * 1 + 1 * 0 = 0; rw [h1]
/-- Row tile `t` of the input-side weight matrix of the input gate. -/
theorem wii_read (c : Dev nD) (t : Fin cfg0.N) (p : Fin 128) (k : Fin 4096) :
    (iblk m c 3 t : Vec Ideal S128x4096 .f32) (ix2 p k) = m ((c : Thread nD τ).loc main_arg3) (ix2 (row t p) k) := by
  obtain ⟨h0, h1⟩ := at3 t
  unfold iblk
  rw [View.read_apply]
  show V m c main_arg3 _ = _
  refine (congrArg (V m c main_arg3) (funext fun a => Fin.ext ?_)).trans (congrFun (V_main_arg3 m c) _)
  match a with
  | ⟨0, _⟩ => show win0_3.index t (0 : Fin 2) * 128 + 1 * p.val = 128 * t.val + p.val; rw [h0]; omega
  | ⟨1, _⟩ => show win0_3.index t (1 : Fin 2) * 4096 + 1 * k.val = k.val; rw [h1]; omega
/-- Row tile `t` of the input-side weight matrix of the forget gate. -/
theorem wif_read (c : Dev nD) (t : Fin cfg0.N) (p : Fin 128) (k : Fin 4096) :
    (iblk m c 4 t : Vec Ideal S128x4096 .f32) (ix2 p k) = m ((c : Thread nD τ).loc main_arg4) (ix2 (row t p) k) := by
  obtain ⟨h0, h1⟩ := at4 t
  unfold iblk
  rw [View.read_apply]
  show V m c main_arg4 _ = _
  refine (congrArg (V m c main_arg4) (funext fun a => Fin.ext ?_)).trans (congrFun (V_main_arg4 m c) _)
  match a with
  | ⟨0, _⟩ => show win0_4.index t (0 : Fin 2) * 128 + 1 * p.val = 128 * t.val + p.val; rw [h0]; omega
  | ⟨1, _⟩ => show win0_4.index t (1 : Fin 2) * 4096 + 1 * k.val = k.val; rw [h1]; omega
/-- Row tile `t` of the input-side weight matrix of the candidate. -/
theorem wig_read (c : Dev nD) (t : Fin cfg0.N) (p : Fin 128) (k : Fin 4096) :
    (iblk m c 5 t : Vec Ideal S128x4096 .f32) (ix2 p k) = m ((c : Thread nD τ).loc main_arg5) (ix2 (row t p) k) := by
  obtain ⟨h0, h1⟩ := at5 t
  unfold iblk
  rw [View.read_apply]
  show V m c main_arg5 _ = _
  refine (congrArg (V m c main_arg5) (funext fun a => Fin.ext ?_)).trans (congrFun (V_main_arg5 m c) _)
  match a with
  | ⟨0, _⟩ => show win0_5.index t (0 : Fin 2) * 128 + 1 * p.val = 128 * t.val + p.val; rw [h0]; omega
  | ⟨1, _⟩ => show win0_5.index t (1 : Fin 2) * 4096 + 1 * k.val = k.val; rw [h1]; omega
/-- Row tile `t` of the input-side weight matrix of the output gate. -/
theorem wio_read (c : Dev nD) (t : Fin cfg0.N) (p : Fin 128) (k : Fin 4096) :
    (iblk m c 6 t : Vec Ideal S128x4096 .f32) (ix2 p k) = m ((c : Thread nD τ).loc main_arg6) (ix2 (row t p) k) := by
  obtain ⟨h0, h1⟩ := at6 t
  unfold iblk
  rw [View.read_apply]
  show V m c main_arg6 _ = _
  refine (congrArg (V m c main_arg6) (funext fun a => Fin.ext ?_)).trans (congrFun (V_main_arg6 m c) _)
  match a with
  | ⟨0, _⟩ => show win0_6.index t (0 : Fin 2) * 128 + 1 * p.val = 128 * t.val + p.val; rw [h0]; omega
  | ⟨1, _⟩ => show win0_6.index t (1 : Fin 2) * 4096 + 1 * k.val = k.val; rw [h1]; omega
/-- Row tile `t` of the hidden-side weight matrix of the input gate. -/
theorem whi_read (c : Dev nD) (t : Fin cfg0.N) (p : Fin 128) (k : Fin 4096) :
    (iblk m c 7 t : Vec Ideal S128x4096 .f32) (ix2 p k) = m ((c : Thread nD τ).loc main_arg7) (ix2 (row t p) k) := by
  obtain ⟨h0, h1⟩ := at7 t
  unfold iblk
  rw [View.read_apply]
  show V m c main_arg7 _ = _
  refine (congrArg (V m c main_arg7) (funext fun a => Fin.ext ?_)).trans (congrFun (V_main_arg7 m c) _)
  match a with
  | ⟨0, _⟩ => show win0_7.index t (0 : Fin 2) * 128 + 1 * p.val = 128 * t.val + p.val; rw [h0]; omega
  | ⟨1, _⟩ => show win0_7.index t (1 : Fin 2) * 4096 + 1 * k.val = k.val; rw [h1]; omega
/-- Row tile `t` of the hidden-side weight matrix of the forget gate. -/
theorem whf_read (c : Dev nD) (t : Fin cfg0.N) (p : Fin 128) (k : Fin 4096) :
    (iblk m c 8 t : Vec Ideal S128x4096 .f32) (ix2 p k) = m ((c : Thread nD τ).loc main_arg8) (ix2 (row t p) k) := by
  obtain ⟨h0, h1⟩ := at8 t
  unfold iblk
  rw [View.read_apply]
  show V m c main_arg8 _ = _
  refine (congrArg (V m c main_arg8) (funext fun a => Fin.ext ?_)).trans (congrFun (V_main_arg8 m c) _)
  match a with
  | ⟨0, _⟩ => show win0_8.index t (0 : Fin 2) * 128 + 1 * p.val = 128 * t.val + p.val; rw [h0]; omega
  | ⟨1, _⟩ => show win0_8.index t (1 : Fin 2) * 4096 + 1 * k.val = k.val; rw [h1]; omega
/-- Row tile `t` of the hidden-side weight matrix of the candidate. -/
theorem whg_read (c : Dev nD) (t : Fin cfg0.N) (p : Fin 128) (k : Fin 4096) :
    (iblk m c 9 t : Vec Ideal S128x4096 .f32) (ix2 p k) = m ((c : Thread nD τ).loc main_arg9) (ix2 (row t p) k) := by
  obtain ⟨h0, h1⟩ := at9 t
  unfold iblk
  rw [View.read_apply]
  show V m c main_arg9 _ = _
  refine (congrArg (V m c main_arg9) (funext fun a => Fin.ext ?_)).trans (congrFun (V_main_arg9 m c) _)
  match a with
  | ⟨0, _⟩ => show win0_9.index t (0 : Fin 2) * 128 + 1 * p.val = 128 * t.val + p.val; rw [h0]; omega
  | ⟨1, _⟩ => show win0_9.index t (1 : Fin 2) * 4096 + 1 * k.val = k.val; rw [h1]; omega
/-- Row tile `t` of the hidden-side weight matrix of the output gate. -/
theorem who_read (c : Dev nD) (t : Fin cfg0.N) (p : Fin 128) (k : Fin 4096) :
    (iblk m c 10 t : Vec Ideal S128x4096 .f32) (ix2 p k) = m ((c : Thread nD τ).loc main_arg10) (ix2 (row t p) k) := by
  obtain ⟨h0, h1⟩ := at10 t
  unfold iblk
  rw [View.read_apply]
  show V m c main_arg10 _ = _
  refine (congrArg (V m c main_arg10) (funext fun a => Fin.ext ?_)).trans (congrFun (V_main_arg10 m c) _)
  match a with
  | ⟨0, _⟩ => show win0_10.index t (0 : Fin 2) * 128 + 1 * p.val = 128 * t.val + p.val; rw [h0]; omega
  | ⟨1, _⟩ => show win0_10.index t (1 : Fin 2) * 4096 + 1 * k.val = k.val; rw [h1]; omega
/-- The input gate's bias tile. -/
theorem bi_read (c : Dev nD) (t : Fin cfg0.N) (p : Fin 128) :
    (iblk m c 11 t : Vec Ideal S128x1 .f32) (ix2 p (0 : Fin 1)) = m ((c : Thread nD τ).loc main_arg11) (ix2 (row t p) (0 : Fin 1)) := by
  obtain ⟨h0, h1⟩ := at11 t
  unfold iblk
  rw [View.read_apply]
  show V m c main_arg11 _ = _
  refine (congrArg (V m c main_arg11) (funext fun a => Fin.ext ?_)).trans (congrFun (V_main_arg11 m c) _)
  match a with
  | ⟨0, _⟩ => show win0_11.index t (0 : Fin 2) * 128 + 1 * p.val = 128 * t.val + p.val; rw [h0]; omega
  | ⟨1, _⟩ => show win0_11.index t (1 : Fin 2) * 1 + 1 * 0 = 0; rw [h1]
/-- The forget gate's bias tile. -/
theorem bf_read (c : Dev nD) (t : Fin cfg0.N) (p : Fin 128) :
    (iblk m c 12 t : Vec Ideal S128x1 .f32) (ix2 p (0 : Fin 1)) = m ((c : Thread nD τ).loc main_arg12) (ix2 (row t p) (0 : Fin 1)) := by
  obtain ⟨h0, h1⟩ := at12 t
  unfold iblk
  rw [View.read_apply]
  show V m c main_arg12 _ = _
  refine (congrArg (V m c main_arg12) (funext fun a => Fin.ext ?_)).trans (congrFun (V_main_arg12 m c) _)
  match a with
  | ⟨0, _⟩ => show win0_12.index t (0 : Fin 2) * 128 + 1 * p.val = 128 * t.val + p.val; rw [h0]; omega
  | ⟨1, _⟩ => show win0_12.index t (1 : Fin 2) * 1 + 1 * 0 = 0; rw [h1]
/-- The candidate's bias tile. -/
theorem bg_read (c : Dev nD) (t : Fin cfg0.N) (p : Fin 128) :
    (iblk m c 13 t : Vec Ideal S128x1 .f32) (ix2 p (0 : Fin 1)) = m ((c : Thread nD τ).loc main_arg13) (ix2 (row t p) (0 : Fin 1)) := by
  obtain ⟨h0, h1⟩ := at13 t
  unfold iblk
  rw [View.read_apply]
  show V m c main_arg13 _ = _
  refine (congrArg (V m c main_arg13) (funext fun a => Fin.ext ?_)).trans (congrFun (V_main_arg13 m c) _)
  match a with
  | ⟨0, _⟩ => show win0_13.index t (0 : Fin 2) * 128 + 1 * p.val = 128 * t.val + p.val; rw [h0]; omega
  | ⟨1, _⟩ => show win0_13.index t (1 : Fin 2) * 1 + 1 * 0 = 0; rw [h1]
/-- The output gate's bias tile. -/
theorem bo_read (c : Dev nD) (t : Fin cfg0.N) (p : Fin 128) :
    (iblk m c 14 t : Vec Ideal S128x1 .f32) (ix2 p (0 : Fin 1)) = m ((c : Thread nD τ).loc main_arg14) (ix2 (row t p) (0 : Fin 1)) := by
  obtain ⟨h0, h1⟩ := at14 t
  unfold iblk
  rw [View.read_apply]
  show V m c main_arg14 _ = _
  refine (congrArg (V m c main_arg14) (funext fun a => Fin.ext ?_)).trans (congrFun (V_main_arg14 m c) _)
  match a with
  | ⟨0, _⟩ => show win0_14.index t (0 : Fin 2) * 128 + 1 * p.val = 128 * t.val + p.val; rw [h0]; omega
  | ⟨1, _⟩ => show win0_14.index t (1 : Fin 2) * 1 + 1 * 0 = 0; rw [h1]

end Cert.KernelIdeal.ArrayCell

end
-- ==== Proof.ResultArrays.lean ====
/-
  What the kernel's run leaves in its two result arrays: the LSTM cell step at every index.

  Point t writes back, to the cell column, entries 128·t … 128·t + 127 and, to the hidden row, entries
  (0, 0, 128·t) … (0, 0, 128·t + 127); what it writes at local row p is the cell step's value at global row
  128·t + p, because each block it loaded is the matching rows of its array. Every index of either array lies in
  exactly the block of point (row / 128), so after the 32 points each array holds the cell step everywhere.
-/
import proofs.«145973_j86380382257772_1_alg».proof.Proof.ArrayCell

noncomputable section

open Idealize.ShloMosaic Idealize.ShloMosaic.TcCoe Idealize.SL.Sem
open Idealize.ShloMosaic.Pipeline (Dat)

namespace Cert.KernelIdeal.ArrayCell

open Cert.KernelIdeal Cert.KernelIdeal.Gen Cert.KernelIdeal.BlockCell Cert.LstmCell Idealize.ShloMosaic.ValueIdx

variable (m : (ℓ : Loc nD τ sig) → Buf (Elt Ideal) ℓ) (ρ : Dev nD → PrngReg)

/-- The new cell value at row `r`, of the argument arrays as launched. -/
def cellAt (c : Dev nD) (r : Fin 4096) : EReal :=
  cellNext (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) (m ((c : Thread nD τ).loc main_arg8)) (m ((c : Thread nD τ).loc main_arg9))
    (m ((c : Thread nD τ).loc main_arg11)) (m ((c : Thread nD τ).loc main_arg12)) (m ((c : Thread nD τ).loc main_arg13)) r

/-- The new hidden value at row `r`, of the argument arrays as launched. -/
def hiddenAt (c : Dev nD) (r : Fin 4096) : EReal :=
  hiddenNext (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
    (m ((c : Thread nD τ).loc main_arg7)) (m ((c : Thread nD τ).loc main_arg8)) (m ((c : Thread nD τ).loc main_arg9))
    (m ((c : Thread nD τ).loc main_arg10))
    (m ((c : Thread nD τ).loc main_arg11)) (m ((c : Thread nD τ).loc main_arg12)) (m ((c : Thread nD τ).loc main_arg13))
    (m ((c : Thread nD τ).loc main_arg14)) r

/-- The cell column the run ends with. -/
def cellArr (c : Dev nD) : S4096x1.Idx → EReal := fun j => cellAt m c (j 0)
/-- The hidden row the run ends with. -/
def hiddenArr (c : Dev nD) : S1x1x4096.Idx → EReal := fun j => hiddenAt m c (j 2)

/-- What point `t` leaves in the cell tile at local row `p` is the new cell value at global row `128·t + p`. -/
theorem cell_point (c : Dev nD) (t : Fin cfg0.N) (p : Fin 128) :
    out0_16 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (ix2 p (0 : Fin 1))
      = cellAt m c (row t p) := by
  refine (cell_out_at (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t) p).trans ?_
  exact tileCell_eq (iblk m c 0 t) (iblk m c 1 t) (iblk m c 2 t) (iblk m c 3 t) (iblk m c 4 t) (iblk m c 5 t)
    (iblk m c 7 t) (iblk m c 8 t) (iblk m c 9 t) (iblk m c 11 t) (iblk m c 12 t) (iblk m c 13 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg7)) (m ((c : Thread nD τ).loc main_arg8)) (m ((c : Thread nD τ).loc main_arg9))
    (m ((c : Thread nD τ).loc main_arg11)) (m ((c : Thread nD τ).loc main_arg12)) (m ((c : Thread nD τ).loc main_arg13))
    p (row t p) (x_read m c t) (h_read m c t) (c_read m c t p)
    (wii_read m c t p) (wif_read m c t p) (wig_read m c t p) (whi_read m c t p) (whf_read m c t p) (whg_read m c t p)
    (bi_read m c t p) (bf_read m c t p) (bg_read m c t p)

/-- What point `t` leaves in the hidden tile at `(0, 0, p)` is the new hidden value at global row `128·t + p`. -/
theorem hidden_point (c : Dev nD) (t : Fin cfg0.N) (p : Fin 128) :
    out0_15 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (ix3 (0 : Fin 1) (0 : Fin 1) p)
      = hiddenAt m c (row t p) := by
  refine (hidden_out_at (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t) p).trans ?_
  exact tileHidden_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) (iblk m c 13 t) (iblk m c 14 t)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))
    (m ((c : Thread nD τ).loc main_arg7)) (m ((c : Thread nD τ).loc main_arg8)) (m ((c : Thread nD τ).loc main_arg9))
    (m ((c : Thread nD τ).loc main_arg10))
    (m ((c : Thread nD τ).loc main_arg11)) (m ((c : Thread nD τ).loc main_arg12)) (m ((c : Thread nD τ).loc main_arg13))
    (m ((c : Thread nD τ).loc main_arg14))
    p (row t p) (x_read m c t) (h_read m c t) (c_read m c t p)
    (wii_read m c t p) (wif_read m c t p) (wig_read m c t p) (wio_read m c t p)
    (whi_read m c t p) (whf_read m c t p) (whg_read m c t p) (who_read m c t p)
    (bi_read m c t p) (bf_read m c t p) (bg_read m c t p) (bo_read m c t p)

/-! ## The cell column -/

/-- Point `t` writes back block `t` of the cell column. -/
theorem flushed_cell (c : Dev nD) (t : Fin cfg0.N) :
    (dats m 0 c).flushed 16 t = ((cfg0.win 16).blk t).view.read (Elt Ideal) (cellArr m c) := by
  obtain ⟨h0, h1⟩ := at16 t
  rw [Cert.KernelIdeal.Value.flushed16]
  funext y
  obtain ⟨p, rfl⟩ : ∃ p : Fin 128, y = ix2 p (0 : Fin 1) := ⟨y 0, funext fun a => by
    match a with
    | ⟨0, _⟩ => rfl
    | ⟨1, ha⟩ => exact Fin.ext (by have hlt : (y ⟨1, ha⟩).val < 1 := (y ⟨1, ha⟩).isLt; show (y ⟨1, ha⟩).val = 0; omega)⟩
  show out0_16 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (ix2 p (0 : Fin 1))
      = cellAt m c ((((cfg0.win 16).blk t).view.emb (ix2 p (0 : Fin 1))) 0)
  refine (cell_point m c t p).trans (congrArg (cellAt m c) (Fin.ext ?_))
  show 128 * t.val + p.val = win0_16.index t (0 : Fin 2) * 128 + 1 * p.val
  rw [h0]; omega

/-- Every index of the cell column lies in the block of the point its row belongs to. -/
theorem cover_cell (i : S4096x1.Idx) :
    ∃ t : Fin cfg0.N, (cfg0.win 16).flush t = true ∧ i ∈ ((cfg0.win 16).blk t).view.set := by
  have hi0 : (i 0).val < 4096 := (i 0).isLt
  have hi1 : (i 1).val < 1 := (i 1).isLt
  have hN : cfg0.N = 32 := N_0
  obtain ⟨t, ht⟩ : ∃ t : Fin cfg0.N, t.val = (i 0).val / 128 := ⟨⟨(i 0).val / 128, by omega⟩, rfl⟩
  obtain ⟨h0, h1⟩ := at16 t
  refine ⟨t, flush0_16 t, ?_⟩
  show i ∈ ((View.whole main_v3_1).slice (win0_16.rect t)).set
  rw [View.set_slice_whole, Rect.mem_set_unit]
  intro a
  match a with
  | ⟨0, _⟩ =>
    show win0_16.index t (0 : Fin 2) * 128 ≤ (i 0).val ∧ (i 0).val < win0_16.index t (0 : Fin 2) * 128 + 128
    rw [h0]; omega
  | ⟨1, _⟩ =>
    show win0_16.index t (1 : Fin 2) * 1 ≤ (i 1).val ∧ (i 1).val < win0_16.index t (1 : Fin 2) * 1 + 1
    rw [h1]; omega

/-- The cell column after the run. -/
theorem final_cell (c : Dev nD) : (dats m 0 c).arrAt 16 cfg0.N = cellArr m c :=
  (dats m 0 c).arrAt_eq_of_cover 16 (cellArr m c) (fun t _ => flushed_cell m c t) cover_cell

/-! ## The hidden row -/

/-- Point `t` writes back block `t` of the hidden row. -/
theorem flushed_hidden (c : Dev nD) (t : Fin cfg0.N) :
    (dats m 0 c).flushed 15 t = ((cfg0.win 15).blk t).view.read (Elt Ideal) (hiddenArr m c) := by
  obtain ⟨h0, h1, h2⟩ := at15 t
  rw [Cert.KernelIdeal.Value.flushed15]
  funext y
  obtain ⟨p, rfl⟩ : ∃ p : Fin 128, y = ix3 (0 : Fin 1) (0 : Fin 1) p := ⟨y 2, funext fun a => by
    match a with
    | ⟨0, ha⟩ => exact Fin.ext (by have hlt : (y ⟨0, ha⟩).val < 1 := (y ⟨0, ha⟩).isLt; show (y ⟨0, ha⟩).val = 0; omega)
    | ⟨1, ha⟩ => exact Fin.ext (by have hlt : (y ⟨1, ha⟩).val < 1 := (y ⟨1, ha⟩).isLt; show (y ⟨1, ha⟩).val = 0; omega)
    | ⟨2, _⟩ => rfl⟩
  show out0_15 (F := Ideal) (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) (iblk m c 12 t) (iblk m c 13 t) (iblk m c 14 t)
        (ix3 (0 : Fin 1) (0 : Fin 1) p)
      = hiddenAt m c ((((cfg0.win 15).blk t).view.emb (ix3 (0 : Fin 1) (0 : Fin 1) p)) 2)
  refine (hidden_point m c t p).trans (congrArg (hiddenAt m c) (Fin.ext ?_))
  show 128 * t.val + p.val = win0_15.index t (2 : Fin 3) * 128 + 1 * p.val
  rw [h2]; omega

/-- Every index of the hidden row lies in the block of the point its last coordinate belongs to. -/
theorem cover_hidden (i : S1x1x4096.Idx) :
    ∃ t : Fin cfg0.N, (cfg0.win 15).flush t = true ∧ i ∈ ((cfg0.win 15).blk t).view.set := by
  have hi0 : (i 0).val < 1 := (i 0).isLt
  have hi1 : (i 1).val < 1 := (i 1).isLt
  have hi2 : (i 2).val < 4096 := (i 2).isLt
  have hN : cfg0.N = 32 := N_0
  obtain ⟨t, ht⟩ : ∃ t : Fin cfg0.N, t.val = (i 2).val / 128 := ⟨⟨(i 2).val / 128, by omega⟩, rfl⟩
  obtain ⟨h0, h1, h2⟩ := at15 t
  refine ⟨t, flush0_15 t, ?_⟩
  show i ∈ ((View.whole main_v3_0).slice (win0_15.rect t)).set
  rw [View.set_slice_whole, Rect.mem_set_unit]
  intro a
  match a with
  | ⟨0, _⟩ =>
    show win0_15.index t (0 : Fin 3) * 1 ≤ (i 0).val ∧ (i 0).val < win0_15.index t (0 : Fin 3) * 1 + 1
    rw [h0]; omega
  | ⟨1, _⟩ =>
    show win0_15.index t (1 : Fin 3) * 1 ≤ (i 1).val ∧ (i 1).val < win0_15.index t (1 : Fin 3) * 1 + 1
    rw [h1]; omega
  | ⟨2, _⟩ =>
    show win0_15.index t (2 : Fin 3) * 128 ≤ (i 2).val ∧ (i 2).val < win0_15.index t (2 : Fin 3) * 128 + 128
    rw [h2]; omega

/-- The hidden row after the run. -/
theorem final_hidden (c : Dev nD) : (dats m 0 c).arrAt 15 cfg0.N = hiddenArr m c :=
  (dats m 0 c).arrAt_eq_of_cover 15 (hiddenArr m c) (fun t _ => flushed_hidden m c t) cover_hidden

/-! ## The run -/

/-- Every weakly fair execution of the kernel's program ends with the hidden row and the cell column at the cell
    step of the arguments, the arguments unchanged. -/
theorem run : θ_run defs (onTc (τ := τ) (main (F := Ideal))) ⟨m, fun _ => 0, ρ⟩ fun r => ∀ c : Dev nD,
      r.2.mem ((c : Thread nD τ).loc main_v3_0) = hiddenArr m c
      ∧ r.2.mem ((c : Thread nD τ).loc main_v3_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final_hidden m c), (h c).2.1.trans (final_cell m c), (h c).2.2⟩)
    (Cert.KernelIdeal.Value.run_blocks m ρ)

end Cert.KernelIdeal.ArrayCell

end
-- ==== Proof.lean ====
/-
  One step of an LSTM cell, H = I = 4096: the kernel streams 128-row tiles of the eight weight matrices over a
  grid of 32 points and forms, per tile, the four gates  logistic(W·x + U·h + b)  (the candidate too is a
  logistic here), the new cell column  f · c + i · g  and the new hidden row  o · tanh(cell); the reference
  computes the same with whole matrix–vector products and the logistic spelled  1 / (1 + exp(-z)).

  On the extended reals the two are one function of the arguments, index by index, with no side condition:
  narrowing to bf16 is the identity, a tile product into a zero accumulator and a host dot_general are the same
  sum over the contraction index, the spelled quotient is the logistic (the pattern of 1.0 denotes 1), and the
  tiles' rows are the matrices' rows 128·t + p. CellSpec states the cell step; RefCell reads the reference's
  run as it; BlockCell reads one grid point's stores as it on the point's blocks; ArrayCell reads each block as
  rows of its array; ResultArrays puts the 32 blocks together. The three frame claims are the generated frames
  (the reference's is its run with the results dropped), and the idealization rewrote nothing, so the
  preservation claim is `True`.
-/
import proofs.«145973_j86380382257772_1_alg».proof.Defs
import proofs.«145973_j86380382257772_1_alg».proof.Proof.Gen.Kernel
import proofs.«145973_j86380382257772_1_alg».proof.Proof.Gen.Kernel.Skeleton
import proofs.«145973_j86380382257772_1_alg».proof.Proof.Gen.Kernel.Launch
import proofs.«145973_j86380382257772_1_alg».proof.Proof.Gen.Kernel.Points
import proofs.«145973_j86380382257772_1_alg».proof.Proof.Gen.Kernel.Frame
import proofs.«145973_j86380382257772_1_alg».proof.Proof.Gen.KernelIdeal
import proofs.«145973_j86380382257772_1_alg».proof.Proof.Gen.KernelIdeal.Skeleton
import proofs.«145973_j86380382257772_1_alg».proof.Proof.Gen.KernelIdeal.Launch
import proofs.«145973_j86380382257772_1_alg».proof.Proof.Gen.KernelIdeal.Points
import proofs.«145973_j86380382257772_1_alg».proof.Proof.Gen.KernelIdeal.Frame
import proofs.«145973_j86380382257772_1_alg».proof.Proof.Gen.ReferenceIdeal
import proofs.«145973_j86380382257772_1_alg».proof.Proof.Gen.Pre_finite_inputs
import proofs.«145973_j86380382257772_1_alg».proof.Proof.Gen.KernelIdeal.Value
import proofs.«145973_j86380382257772_1_alg».proof.Proof.Gen.ReferenceIdeal.Run
import proofs.«145973_j86380382257772_1_alg».proof.Proof.Gen.ReferenceIdeal.Read
import proofs.«145973_j86380382257772_1_alg».proof.Proof.RefCell
import proofs.«145973_j86380382257772_1_alg».proof.Proof.ResultArrays
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run with the three results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From memories that agree on the fifteen arguments both programs end with the hidden row (returned twice) and
    the cell column at the cell step of the arguments. -/
theorem algebraic : Cert.algebraic_KernelIdeal_ReferenceIdeal := by
  intro m ρ m' ρ' _ hagree
  refine ⟨fun c => Cert.KernelIdeal.ArrayCell.hiddenArr m c, fun c => Cert.KernelIdeal.ArrayCell.hiddenArr m c,
    fun c => Cert.KernelIdeal.ArrayCell.cellArr m c, ?_, ?_⟩
  · exact (θ_run Cert.KernelIdeal.defs _ _).mono (fun r h c => ⟨(h c).1, (h c).1, (h c).2⟩)
      (Cert.KernelIdeal.ArrayCell.run m ρ)
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14⟩ := hagree c
    have hh : Cert.ReferenceIdeal.Read.val_main_v48 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg10))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        (m' ((c.tc : Thread Cert.ReferenceIdeal.nD Cert.ReferenceIdeal.τ).loc Cert.ReferenceIdeal.main_arg14))
        = Cert.KernelIdeal.ArrayCell.hiddenArr m c := by
      rw [Cert.ReferenceIdeal.RefCell.hidden_eq, e0, e1, e2, e3, e4, e5, e6, e7, e8, e9, e10, e11, e12, e13, e14]
      rfl
    have hc : Cert.ReferenceIdeal.Read.val_main_v45 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg7))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
        (m' ((c.tc : Thread Cert.ReferenceIdeal.nD Cert.ReferenceIdeal.τ).loc Cert.ReferenceIdeal.main_arg11))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
        = Cert.KernelIdeal.ArrayCell.cellArr m c := by
      rw [Cert.ReferenceIdeal.RefCell.cell_eq, e0, e1, e2, e3, e4, e5, e7, e8, e9, e11, e12, e13]
      rfl
    exact ⟨(h c).1.trans hh, (h c).1.trans hh, (h c).2.2.1.trans hc, (h c).2.2.2⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
